-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x128 : Shape := ⟨2, ![8192, 128]⟩
abbrev S_ : Shape := ⟨0, ![]⟩

class Facts : Prop where
  bcast_S_S8192x128 : S_.BroadcastsInDim S8192x128 (![] : Fin 0 → Fin S8192x128.rank)
  reducesTo_S8192x128_S_d0_1 : S8192x128.ReducesTo [0, 1] S_
  h_S_ : 0 < S_.numel

variable [Facts]

def fn {F : FTy → Type} [FloatOps F] (main_arg0 : FVec F S8192x128 .f32) : IVec S_ 1 :=
  let main_v0 : FVec F S8192x128 .f32 := Host.absf main_arg0
  let main_cst : FVec F S_ .f32 := constant S_ .f32 0x7F800000#32
  let main_v1 : FVec F S8192x128 .f32 := broadcastInDim S8192x128 ![] bcast_S_S8192x128 main_cst
  let main_v2 : IVec S8192x128 1 := cmpf .olt main_v0 main_v1
  let main_c : IVec S_ 1 := constantI S_ 1 1#1
  let main_v3 : IVec S_ 1 := (fun x v => Host.reduce IntOp.andi x v reducesTo_S8192x128_S_d0_1 h_S_) main_v2 main_c
  main_v3
-- ==== Kernel.lean ====
abbrev S8192x128 : Shape := ⟨2, ![8192, 128]⟩
abbrev S_ : Shape := ⟨0, ![]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩
abbrev S512x128 : Shape := ⟨2, ![512, 128]⟩
abbrev S2048x128 : Shape := ⟨2, ![2048, 128]⟩
abbrev S512x1 : Shape := ⟨2, ![512, 1]⟩
abbrev S1x2048 : Shape := ⟨2, ![1, 2048]⟩
abbrev S512x2048 : Shape := ⟨2, ![512, 2048]⟩

abbrev nBuf : Space → Nat
  | .hbm => 7
  | .vmem => 10
  | .smem => 0
  | _ => 0

abbrev bufTy : (tb : Table) → Fin (tcTables nBuf tb) → BufTy
  | .hbm, ⟨0, _⟩ => ⟨S8192x128, .f32⟩
  | .hbm, ⟨1, _⟩ => ⟨S8192x128, .f32⟩
  | .hbm, ⟨2, _⟩ => ⟨S_, .f32⟩
  | .hbm, ⟨3, _⟩ => ⟨S8192, .f32⟩
  | .hbm, ⟨4, _⟩ => ⟨S8192x1, .f32⟩
  | .hbm, ⟨5, _⟩ => ⟨S1x8192, .f32⟩
  | .hbm, ⟨6, _⟩ => ⟨S8192x8192, .f32⟩
  | .local _ .vmem, ⟨0, _⟩ => ⟨S512x128, .f32⟩
  | .local _ .vmem, ⟨1, _⟩ => ⟨S512x128, .f32⟩
  | .local _ .vmem, ⟨2, _⟩ => ⟨S2048x128, .f32⟩
  | .local _ .vmem, ⟨3, _⟩ => ⟨S2048x128, .f32⟩
  | .local _ .vmem, ⟨4, _⟩ => ⟨S512x1, .f32⟩
  | .local _ .vmem, ⟨5, _⟩ => ⟨S512x1, .f32⟩
  | .local _ .vmem, ⟨6, _⟩ => ⟨S1x2048, .f32⟩
  | .local _ .vmem, ⟨7, _⟩ => ⟨S1x2048, .f32⟩
  | .local _ .vmem, ⟨8, _⟩ => ⟨S512x2048, .f32⟩
  | .local _ .vmem, ⟨9, _⟩ => ⟨S512x2048, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  reducesTo_S8192x128_S8192_d1 : S8192x128.ReducesTo [1] S8192
  h_S_ : 0 < S_.numel
  shapeCasts_S8192_S8192x1 : S8192.ShapeCasts S8192x1
  shapeCasts_S8192_S1x8192 : S8192.ShapeCasts S1x8192
  inb_S512x128_S512x128_0_0 : ∀ a, (![0, 0] : Fin 2 → Nat) a + S512x128.size a ≤ S512x128.size a
  h_S512x128 : 0 < S512x128.numel
  inb_S2048x128_S2048x128_0_0 : ∀ a, (![0, 0] : Fin 2 → Nat) a + S2048x128.size a ≤ S2048x128.size a
  h_S2048x128 : 0 < S2048x128.numel
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S512x1_S512x2048 : S512x1.Broadcasts S512x2048
  broadcasts_S1x2048_S512x2048 : S1x2048.Broadcasts S512x2048
  inb_S512x2048_S512x2048_0_0 : ∀ a, (![0, 0] : Fin 2 → Nat) a + S512x2048.size a ≤ S512x2048.size a
  h_S512x2048 : 0 < S512x2048.numel
  dot_S512x128_S2048x128_S512x2048_1_1_0_0_n_n_wf : DotDims.WF S512x128 S2048x128 S512x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x128.size a ≤ S8192x128.size a
  hwx0_0 : ∀ i : grid0.Coords, EltTy.bits .f32 = 32 ∨ (Rect.block (s := S8192x128) S512x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x128.size a ≤ S8192x128.size a
  hwx0_1 : ∀ i : grid0.Coords, EltTy.bits .f32 = 32 ∨ (Rect.block (s := S8192x128) S2048x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1.size a ≤ S8192x1.size a
  hwx0_2 : ∀ i : grid0.Coords, EltTy.bits .f32 = 32 ∨ (Rect.block (s := S8192x1) S512x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x2048.size a ≤ S1x8192.size a
  hwx0_3 : ∀ i : grid0.Coords, EltTy.bits .f32 = 32 ∨ (Rect.block (s := S1x8192) S1x2048.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x2048.size a ≤ S8192x8192.size a
  hwx0_4 : ∀ i : grid0.Coords, EltTy.bits .f32 = 32 ∨ (Rect.block (s := S8192x8192) S512x2048.size (cc0_transform_4 i) (hinb0_4 i)).WholeWords (EltTy.packing .f32)

variable [Facts₀]

def dot_S512x128_S2048x128_S512x2048_1_1_0_0_n_n : DotDims S512x128 S2048x128 S512x2048 where
  lhsContracting := [1]
  rhsContracting := [1]
  lhsNonContracting := [0]
  rhsNonContracting := [0]
  lhsBatch := []
  rhsBatch := []
  wf := dot_S512x128_S2048x128_S512x2048_1_1_0_0_n_n_wf

abbrev win0_0 : Pipeline.Window sig grid0 :=
  Pipeline.Window.ofSpec (Memref.whole main_arg0) S512x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S2048x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S512x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v4) S512x2048.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8192x128 : Shape := ⟨2, ![8192, 128]⟩
abbrev S_ : Shape := ⟨0, ![]⟩
abbrev S8192 : Shape := ⟨1, ![8192]⟩
abbrev S128x8192 : Shape := ⟨2, ![128, 8192]⟩
abbrev S8192x8192 : Shape := ⟨2, ![8192, 8192]⟩
abbrev S8192x1 : Shape := ⟨2, ![8192, 1]⟩
abbrev S1x8192 : Shape := ⟨2, ![1, 8192]⟩

abbrev nBuf : Space → Nat
  | .hbm => 23
  | .vmem => 0
  | .smem => 0
  | _ => 0

abbrev bufTy : (tb : Table) → Fin (tcTables nBuf tb) → BufTy
  | .hbm, ⟨0, _⟩ => ⟨S8192x128, .f32⟩
  | .hbm, ⟨1, _⟩ => ⟨S8192x128, .f32⟩
  | .hbm, ⟨2, _⟩ => ⟨S_, .f32⟩
  | .hbm, ⟨3, _⟩ => ⟨S8192, .f32⟩
  | .hbm, ⟨4, _⟩ => ⟨S128x8192, .f32⟩
  | .hbm, ⟨5, _⟩ => ⟨S8192x8192, .f32⟩
  | .hbm, ⟨6, _⟩ => ⟨S8192x1, .f32⟩
  | .hbm, ⟨7, _⟩ => ⟨S1x8192, .f32⟩
  | .hbm, ⟨8, _⟩ => ⟨S8192x8192, .f32⟩
  | .hbm, ⟨9, _⟩ => ⟨S8192x8192, .f32⟩
  | .hbm, ⟨10, _⟩ => ⟨S8192x8192, .f32⟩
  | .hbm, ⟨11, _⟩ => ⟨S_, .f32⟩
  | .hbm, ⟨12, _⟩ => ⟨S8192x8192, .f32⟩
  | .hbm, ⟨13, _⟩ => ⟨S8192x8192, .f32⟩
  | .hbm, ⟨14, _⟩ => ⟨S8192x8192, .f32⟩
  | .hbm, ⟨15, _⟩ => ⟨S_, .f32⟩
  | .hbm, ⟨16, _⟩ => ⟨S8192x8192, .f32⟩
  | .hbm, ⟨17, _⟩ => ⟨S8192x8192, .f32⟩
  | .hbm, ⟨18, _⟩ => ⟨S8192x8192, .f32⟩
  | .hbm, ⟨19, _⟩ => ⟨S_, .f32⟩
  | .hbm, ⟨20, _⟩ => ⟨S8192x8192, .f32⟩
  | .hbm, ⟨21, _⟩ => ⟨S8192x8192, .f32⟩
  | .hbm, ⟨22, _⟩ => ⟨S8192x8192, .f32⟩
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_cst_0 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_cst_1 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_cst_2 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩

abbrev nD : Nat := 1
abbrev τ : Topo := Topo.v7x

variable {F : FTy → Type} [FloatOps F]

class Facts₀ : Prop where
  reducesTo_S8192x128_S8192_d1 : S8192x128.ReducesTo [1] S8192
  h_S_ : 0 < S_.numel
  transposes_S8192x128_S128x8192_1_0 : S8192x128.Transposes [1, 0] S128x8192
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  bcast_S_S8192x8192 : S_.BroadcastsInDim S8192x8192 (![] : Fin 0 → Fin S8192x8192.rank)
  dot_S8192x128_S128x8192_S8192x8192_1_0_0_1_n_n_wf : DotDims.WF S8192x128 S128x8192 S8192x8192 [1] [0] [0] [1] [] []

variable [Facts₀]

def dot_S8192x128_S128x8192_S8192x8192_1_0_0_1_n_n : DotDims S8192x128 S128x8192 S8192x8192 where
  lhsContracting := [1]
  rhsContracting := [0]
  lhsNonContracting := [0]
  rhsNonContracting := [1]
  lhsBatch := []
  rhsBatch := []
  wf := dot_S8192x128_S128x8192_S8192x8192_1_0_0_1_n_n_wf

class Facts : Prop extends Facts₀ where

variable [Facts]
-- ==== Proof.LibSharedFrame.lean ====
/-
  The frame run of a one-region kernel whose input windows may share an array.

  A kernel handed one array through several input windows (two blocks of one matrix, say a row tile and a column tile
  of `z` for `z zᵀ`) holds that array once, so each window on it can be given only a PART of the array's full share.
  This file states the run for such a kernel in the form the plain frame run has for distinct arrays: from the body
  obligation at every grid point, the program's shape up to the region, and ONE entailment saying how the distinct
  buffers behind the windows' arrays, each whole at the full share, make the proof data's arrays at entry (`hsplit`:
  the shared array's share split among its windows), every weakly fair execution terminates and every final state
  has each window's array at what the proof data compute for it and every other unscoped buffer as the region found
  it. The kernel keeps nothing between grid points but its staging buffers, uses no semaphore of its own and does
  not touch the generator register: its invariant is the scoped rest alone.
-/
import Idealize.ShloMosaic.Lib.Pipeline.Frame

noncomputable section

namespace Cert.Lib.SharedFrame

open Idealize.ShloMosaic Idealize.ShloMosaic.Pipeline
open Idealize.SL
open Idealize.SL.BI (sProp bigSep)
open scoped Idealize.SL.BI
open Idealize.SL.BI.BIBase Idealize.SL.BI.Laws Idealize.SL.Sem Idealize.SL.ProofMode
open Idealize.SL.RA
open TcCoe

set_option Elab.async false

variable {nD : Nat} {τ : Topo} {sig : RefSig} {Val : EltTy → Type}
variable {Λ₀ : Idealize.SL.Sem.Labels} {P : Type} [Fintype P] [DecidableEq P] [∀ e, Nonempty (Val e)]

local notation "𝕄" => MT nD τ sig Unit Val ℕ (UR sig nD τ) ℕ

/-- The frame run for windows that may share arrays. `hsplit` deals the buffers behind the arrays, whole at the full
    share at the region-entry contents `V`, into the proof data's arrays (each window's array at its own share);
    the invariant is the scoped rest at every point (`hΦ`). The post is the plain frame run's: each window's array at
    `Dat.arrAt w N`, every unscoped buffer that is no window's array at `V`. -/
theorem θ_run_frame_shared (cfgs : P → Cfg sig Λ₀)
    (dats : (p : P) → (c : Dev nD) → Dat τ Val Unit ℕ (UR sig nD τ) ℕ (cfgs p) c) (p : P)
    (hinj : Function.Injective (cellOf (nD := nD) (τ := τ) cfgs)) (hw : WinFacts₀ (cfgs p).spec)
    (hne : ∀ w : Fin (cfgs p).W, 0 < ((cfgs p).spec w).block.numel)
    (harr : ∀ w, ((cfgs p).spec w).arr.IsWhole) (hstage : ∀ w s, (((cfgs p).spec w).stage s).IsWhole)
    (defs₀ : Defs nD τ sig Val Λ₀) (𝒱₀ : Variants)
    (m : (ℓ : Loc nD τ sig) → Buf Val ℓ) (g : Dev nD → PrngReg)
    (main : Dev nD → Prog (TpuEff nD τ sig Val (Sig Λ₀ P fun p => ((cfgs p).toPCfg (Val := Val)).Adm) .tc) PUnit)
    (hbody : ∀ c, BodyObligationLoose (dats p c) defs₀ 𝒱₀ () Set.univ)
    (howed : ∀ c t, (dats p c).owed t = 0)
    (V : (c : Dev nD) → (b : Ref sig .tc) → Buf Val ((c.tc : Thread nD τ).loc b))
    (hmain : HMain (Ix := Unit) (Name := ℕ) (U := UR sig nD τ) (Lvl := ℕ) cfgs p defs₀ 𝒱₀ m main V)
    (hsplit : ∀ c, (arrBufs (cfgs p).spec c (V c) : sProp 𝕄) ⊢ (dats p c).arrays ((dats p c).arrAt · 0))
    (hΦ : ∀ c t, (dats p c).Φ t = scopedRest (Ix := Unit) (Name := ℕ) (U := UR sig nD τ) (Lvl := ℕ) (Val := Val) (cfgs p).spec c) :
    θ_run (Pipeline.defs (fun q => Cfg.toPCfg (Val := Val) (cfgs q)) defs₀) (onTc main) (s₀ m g) (FramePost cfgs dats p V) := by
  classical
  exact θ_run_region_noSem_shared cfgs dats () hinj p hw emb₁ defs₀ 𝒱₀ m g main hbody hne harr hstage howed
    (u₀ := Rounds.initOf (cells cfgs hinj) (launchToks cfgs hinj)) (hu₀ := .rfl)
    (V := V) (hmain := hmain) (hsplit := hsplit)
    (X := fun _ => iprop(emp)) (Y := fun _ => iprop(emp))
    (Z := fun c => unscopedRest (Ix := Unit) (Name := ℕ) (U := UR sig nD τ) (Lvl := ℕ) (cfgs p).spec c (V c))
    (hX := fun c => by
      iintro H
      isplitr; · iempintro
      iexact H)
    (hin := fun c => by
      rw [hΦ]
      iintro ⟨-, H⟩; iexact H)
    (hout := fun c => by
      rw [hΦ]
      iintro H
      isplitr; · iempintro
      iexact H)
    (QY := fun c s => ∀ b ∈ restRefs sig (cfgs p).spec, s.mem ((c.tc : Thread nD τ).loc b) = V c b)
    (hY := fun c s' => by
      iintro ⟨-, HU, HSI⟩
      unfold unscopedRest
      imodintro
      iapply (pointsTo_read_all (restRefs sig (cfgs p).spec) (fun b => (c.tc : Thread nD τ).loc b) (V c) s')
      isplitl [HU] <;> iassumption)
    (hQ := fun s h c => ⟨(h c).1, (h c).2⟩)

end Cert.Lib.SharedFrame

end
-- ==== Proof.KernelFrame.lean ====
/-
  The run of the kernel program, at any float instance: termination, no fault, and what every array holds at the end.

  The program squares and row-sums `z` on the host (`sq`), reshapes `sq` into a column and into a row, and launches one
  kernel on a 16 × 4 grid. At grid point `(i, j)` the kernel reads rows `512 i …` of `z` (window 0), rows `2048 j …` of
  the SAME array `z` (window 1), the matching 512 entries of the column (window 2) and 2048 entries of the row (window 3),
  and stores one 512 × 2048 tile of the result (window 4). Because windows 0 and 1 read one array, that array's full
  share is split in two halves, one per window; both windows only read, so each half comes back unchanged.

  Contents: the arrays as the region finds them (`V`: the host operations applied to the launch memory), each
  window's block at a point (`iblk`), what the body leaves in the output tile (`tileOut`: the one store's payload
  over the four input blocks), the body's triple by symbolic execution, the proof data with the split share, the
  body obligation at every point, the share split (`hsplit`), and the run.
-/
import proofs.«167944_j50560355008576_1_alg».proof.Proof.Gen.Kernel.Launch
import proofs.«167944_j50560355008576_1_alg».proof.Proof.Gen.Kernel.Skeleton
import proofs.«167944_j50560355008576_1_alg».proof.Proof.Gen.Kernel.Points
import proofs.«167944_j50560355008576_1_alg».proof.Proof.LibSharedFrame
import Idealize.ShloMosaic.Lib.Pipeline.FrameBody
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program up to the region -/

/-- Core `c`'s buffers when the region is entered: the launch memory after the five host operations. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

/-- The program is its host operations followed by the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation writes the argument `z`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.reshape_writes, Finset.mem_singleton]
    repeat' apply And.intro
    all_goals exact StableHlo.devRef_ne_of_ne (by decide)))

/-! ## The windows' blocks -/

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block of the array at every grid point, whether the point fetches it
    or the index map has not moved since the last fetch. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block of the array at every grid point, whether the point fetches it
    or the index map has not moved since the last fetch. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block of the array at every grid point, whether the point fetches it
    or the index map has not moved since the last fetch. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block of the array at every grid point, whether the point fetches it
    or the index map has not moved since the last fetch. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The frame claim from a run -/

/-- From a run that ends with every window's array at what the proof data compute, the argument `z` ends as launched:
    window 0 is an input window on `z`, so its array is never written back. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => ((h c).1 0).trans (((dats 0 c).arrAt_in 0 rfl _).trans ((hA c 0).trans (V_main_arg0 m c)))) h

/-! ## The body's accesses: each load and the store take the whole staging buffer -/

abbrev rZi : Rect S512x128 := Rect.unit (s := S512x128) ![0, 0] S512x128.size inb_S512x128_S512x128_0_0
abbrev rZj : Rect S2048x128 := Rect.unit (s := S2048x128) ![0, 0] S2048x128.size inb_S2048x128_S2048x128_0_0
abbrev rCol : Rect S512x1 := Rect.unit (s := S512x1) ![0, 0] S512x1.size inb_S512x1_S512x1_0_0
abbrev rRow : Rect S1x2048 := Rect.unit (s := S1x2048) ![0, 0] S1x2048.size inb_S1x2048_S1x2048_0_0
abbrev rOut : Rect S512x2048 := Rect.unit (s := S512x2048) ![0, 0] S512x2048.size inb_S512x2048_S512x2048_0_0

/-- The output tile after the body, from the four input blocks: its one store, of the payload over the loaded blocks. -/
def tileOut (x0 : Vec F S512x128 .f32) (x1 : Vec F S2048x128 .f32) (x2 : Vec F S512x1 .f32) (x3 : Vec F S1x2048 .f32) : Vec F S512x2048 .f32 :=
  View.canon [⟨rOut, k0_pay1 (View.ld x0 rZi) (View.ld x1 rZj) (View.ld x2 rCol) (View.ld x3 rRow)⟩]

/-- The store covers the tile. -/
theorem tile_cover (p0 : Vec F S512x2048 .f32) (y : S512x2048.Idx) :
    ∃ pc ∈ ([⟨rOut, p0⟩] : List (View.Piece (Elt F) S512x2048 .f32)), y ∈ pc.1.set :=
  View.cover_of_tiled [⟨rOut, p0⟩] S512x2048.size (by rfl) y

/-! ## The body's triple -/

set_option maxHeartbeats 1000000 in
/-- The kernel body on whole staging buffers, the four inputs' at contents `x0 … x3` and the output's at anything,
    runs to the end with the inputs' as they were and the output's at `tileOut` of them. -/
theorem sound_kernel (c : Dev nD) (E : Set ℕ) (i : grid0.Coords)
    (arg2 : Memref sig .tc .vmem S512x128 .f32) (harg2 : arg2.IsWhole) (arg3 : Memref sig .tc .vmem S2048x128 .f32) (harg3 : arg3.IsWhole)
    (arg4 : Memref sig .tc .vmem S512x1 .f32) (harg4 : arg4.IsWhole) (arg5 : Memref sig .tc .vmem S1x2048 .f32) (harg5 : arg5.IsWhole)
    (arg6 : Memref sig .tc .vmem S512x2048 .f32) (harg6 : arg6.IsWhole)
    (x0 : Vec F S512x128 .f32) (x1 : Vec F S2048x128 .f32) (x2 : Vec F S512x1 .f32) (x3 : Vec F S1x2048 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ (∃ d, owns (c : Thread nD τ) arg6 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare (tileOut x0 x1 x2 x3)) -∗ K ⟨⟩))
      ⊢ wp frame (wpE (defs₀ (F := F)) Variants.none c none) E (cc0__kernel i arg2 harg2 arg3 harg3 arg4 harg4 arg5 harg5 arg6 harg6) K := by
  simp only [cc0__kernel_eq_skeleton]; unfold cc0__kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (tile_cover _)

/-! ## The proof data -/

/-- The proof data on core `c`: the arrays as the region finds them; after the body at point `t` each input's buffer at
    its block and the output's at `tileOut` of the input blocks; the invariant the scoped rest; nothing owed; the two
    windows on `z` at the two halves of its share, every other window's array whole. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => tileOut (iblk m c 0 t) (iblk m c 1 t) (iblk m c 2 t) (iblk m c 3 t)
  Φ _ := Pipeline.scopedRest (Ix := Unit) (Name := ℕ) (U := UR sig nD τ) (Lvl := ℕ) (Val := Elt F) spec0 c
  q w := match w with
    | ⟨0, _⟩ => fullShare.left
    | ⟨1, _⟩ => fullShare.right
    | ⟨2, _⟩ => fullShare
    | ⟨3, _⟩ => fullShare
    | ⟨4, _⟩ => fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) :
    (dats m 0 c).after 4 t = tileOut (iblk m c 0 t) (iblk m c 1 t) (iblk m c 2 t) (iblk m c 3 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

/-- The body at any point: the inputs' buffers hold their blocks, so the body's triple applies; the invariant and what the
    core owes pass through untouched. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel c Set.univ (grid0.coords t) _ _ _ _ _ _ _ _ _ _ (iblk m c 0 t) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body obligation, at every point. -/
theorem body_obligation (c : Dev nD) : BodyObligation (dats (F := F) m 0 c) (defs₀ (F := F)) Variants.none () Set.univ := fun t => by
  rw [bigSep_W0, bigSep_W0]
  exact sound_body m c t

/-! ## The share of `z` split between its two windows -/

/-- The distinct buffers behind the five windows' arrays: `z`, the column, the row, the result. -/
theorem arrRefs_eq : Finset.univ.image (Pipeline.arrRef spec0) = [main_arg0, main_v2, main_v3, main_v4].toFinset := by decide

theorem share0 (c : Dev nD) : (dats m 0 c).share 0 = fullShare.left := rfl
theorem share1 (c : Dev nD) : (dats m 0 c).share 1 = fullShare.right := rfl
theorem share2 (c : Dev nD) : (dats m 0 c).share 2 = fullShare := rfl
theorem share3 (c : Dev nD) : (dats m 0 c).share 3 = fullShare := rfl
theorem share4 (c : Dev nD) : (dats m 0 c).share 4 = fullShare := rfl

/-- The proof data's arrays at entry, window by window: each array a whole buffer at the region-entry contents, at the
    window's share. -/
theorem arrays_entry (c : Dev nD) :
    (dats m 0 c).arrays ((dats m 0 c).arrAt · 0)
      = bigSep Finset.univ fun w : Fin 5 => (((c.tc : Thread nD τ).loc (Pipeline.arrRef spec0 w)) ↦{(dats m 0 c).share w} V m c (Pipeline.arrRef spec0 w) : sProp 𝕄) := by
  unfold Dat.arrays
  exact bigSep_congr fun w _ => by rw [(arr_whole0 w).set_eq_univ]; rfl

/-- The buffers behind the arrays, one by one. -/
theorem arrBufs_eq (c : Dev nD) (V' : (b : Ref sig .tc) → Buf (Elt F) ((c.tc : Thread nD τ).loc b)) :
    (Pipeline.arrBufs spec0 c V' : sProp 𝕄)
      = iprop((((c.tc : Thread nD τ).loc main_arg0) ↦{fullShare} V' main_arg0) ∗ (((c.tc : Thread nD τ).loc main_v2) ↦{fullShare} V' main_v2)
          ∗ (((c.tc : Thread nD τ).loc main_v3) ↦{fullShare} V' main_v3) ∗ (((c.tc : Thread nD τ).loc main_v4) ↦{fullShare} V' main_v4)) := by
  unfold Pipeline.arrBufs
  exact bigSep_eq_bigSepL_of_eq [main_arg0, main_v2, main_v3, main_v4] arrRefs_eq (by decide) _

/-- The four buffers behind the arrays, each whole at the full share, make the five windows' arrays: `z`'s full share is
    the left half, for the row-tile window, and the right half, for the column-tile window; the other three buffers go
    whole to their one window. -/
theorem hsplit (c : Dev nD) :
    (Pipeline.arrBufs spec0 c (V m c) : sProp 𝕄) ⊢ (dats m 0 c).arrays ((dats m 0 c).arrAt · 0) := by
  rw [arrays_entry, bigSep_W0, share0, share1, share2, share3, share4, arrBufs_eq]
  iintro ⟨Hz, H2, H3, H4⟩
  ihave Hz := (pointsTo_share (PosShare.mem_left_op_right fullShare)).1 $$ Hz
  icases Hz with ⟨Hz1, Hz2⟩
  isplitl [Hz1]; · iexact Hz1
  isplitl [Hz2]; · iexact Hz2
  isplitl [H2]; · iexact H2
  isplitl [H3]; · iexact H3
  iexact H4

/-! ## The run and the frame -/

set_option backward.isDefEq.respectTransparency.types false in
/-- From any memory with zero counters every weakly fair execution of the program terminates, and every final state has
    each window's array at what the proof data compute for it and every other unscoped buffer as the region found it. -/
theorem run_main : θ_run defs (onTc (τ := τ) (main (F := F))) (s₀ m ρ) (Pipeline.FramePost cfgs (dats m) 0 (V m)) :=
  Cert.Lib.SharedFrame.θ_run_frame_shared cfgs (dats m) (0 : Fin 1) cellOf_inj winFacts₀0 block_pos0 arr_whole0 stage_whole0
    defs₀ Variants.none m ρ main
    (hbody := fun c => (body_obligation m c).loose) (howed := fun _ _ => rfl) (V := V m) (hmain := hmain m Variants.none)
    (hsplit := hsplit m) (hΦ := fun _ _ => rfl)

/-- The frame claim: the program runs to the end without a fault and `z` ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  frame_of m ρ (dats m) (A_eq m) (run_main m ρ)

end Cert.Kernel.Fr

end
-- ==== Proof.KernelIdealFrame.lean ====
/-
  The run of the kernel program, at any float instance: termination, no fault, and what every array holds at the end.

  The program squares and row-sums `z` on the host (`sq`), reshapes `sq` into a column and into a row, and launches one
  kernel on a 16 × 4 grid. At grid point `(i, j)` the kernel reads rows `512 i …` of `z` (window 0), rows `2048 j …` of
  the SAME array `z` (window 1), the matching 512 entries of the column (window 2) and 2048 entries of the row (window 3),
  and stores one 512 × 2048 tile of the result (window 4). Because windows 0 and 1 read one array, that array's full
  share is split in two halves, one per window; both windows only read, so each half comes back unchanged.

  Contents: the arrays as the region finds them (`V`: the host operations applied to the launch memory), each
  window's block at a point (`iblk`), what the body leaves in the output tile (`tileOut`: the one store's payload
  over the four input blocks), the body's triple by symbolic execution, the proof data with the split share, the
  body obligation at every point, the share split (`hsplit`), and the run.
-/
import proofs.«167944_j50560355008576_1_alg».proof.Proof.Gen.KernelIdeal.Launch
import proofs.«167944_j50560355008576_1_alg».proof.Proof.Gen.KernelIdeal.Skeleton
import proofs.«167944_j50560355008576_1_alg».proof.Proof.Gen.KernelIdeal.Points
import proofs.«167944_j50560355008576_1_alg».proof.Proof.LibSharedFrame
import Idealize.ShloMosaic.Lib.Pipeline.FrameBody
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program up to the region -/

/-- Core `c`'s buffers when the region is entered: the launch memory after the five host operations. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

/-- The program is its host operations followed by the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation writes the argument `z`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.reshape_writes, Finset.mem_singleton]
    repeat' apply And.intro
    all_goals exact StableHlo.devRef_ne_of_ne (by decide)))

/-! ## The windows' blocks -/

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block of the array at every grid point, whether the point fetches it
    or the index map has not moved since the last fetch. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block of the array at every grid point, whether the point fetches it
    or the index map has not moved since the last fetch. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block of the array at every grid point, whether the point fetches it
    or the index map has not moved since the last fetch. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block of the array at every grid point, whether the point fetches it
    or the index map has not moved since the last fetch. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The frame claim from a run -/

/-- From a run that ends with every window's array at what the proof data compute, the argument `z` ends as launched:
    window 0 is an input window on `z`, so its array is never written back. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => ((h c).1 0).trans (((dats 0 c).arrAt_in 0 rfl _).trans ((hA c 0).trans (V_main_arg0 m c)))) h

/-! ## The body's accesses: each load and the store take the whole staging buffer -/

abbrev rZi : Rect S512x128 := Rect.unit (s := S512x128) ![0, 0] S512x128.size inb_S512x128_S512x128_0_0
abbrev rZj : Rect S2048x128 := Rect.unit (s := S2048x128) ![0, 0] S2048x128.size inb_S2048x128_S2048x128_0_0
abbrev rCol : Rect S512x1 := Rect.unit (s := S512x1) ![0, 0] S512x1.size inb_S512x1_S512x1_0_0
abbrev rRow : Rect S1x2048 := Rect.unit (s := S1x2048) ![0, 0] S1x2048.size inb_S1x2048_S1x2048_0_0
abbrev rOut : Rect S512x2048 := Rect.unit (s := S512x2048) ![0, 0] S512x2048.size inb_S512x2048_S512x2048_0_0

/-- The output tile after the body, from the four input blocks: its one store, of the payload over the loaded blocks. -/
def tileOut (x0 : Vec F S512x128 .f32) (x1 : Vec F S2048x128 .f32) (x2 : Vec F S512x1 .f32) (x3 : Vec F S1x2048 .f32) : Vec F S512x2048 .f32 :=
  View.canon [⟨rOut, k0_pay1 (View.ld x0 rZi) (View.ld x1 rZj) (View.ld x2 rCol) (View.ld x3 rRow)⟩]

/-- The store covers the tile. -/
theorem tile_cover (p0 : Vec F S512x2048 .f32) (y : S512x2048.Idx) :
    ∃ pc ∈ ([⟨rOut, p0⟩] : List (View.Piece (Elt F) S512x2048 .f32)), y ∈ pc.1.set :=
  View.cover_of_tiled [⟨rOut, p0⟩] S512x2048.size (by rfl) y

/-! ## The body's triple -/

set_option maxHeartbeats 1000000 in
/-- The kernel body on whole staging buffers, the four inputs' at contents `x0 … x3` and the output's at anything,
    runs to the end with the inputs' as they were and the output's at `tileOut` of them. -/
theorem sound_kernel (c : Dev nD) (E : Set ℕ) (i : grid0.Coords)
    (arg2 : Memref sig .tc .vmem S512x128 .f32) (harg2 : arg2.IsWhole) (arg3 : Memref sig .tc .vmem S2048x128 .f32) (harg3 : arg3.IsWhole)
    (arg4 : Memref sig .tc .vmem S512x1 .f32) (harg4 : arg4.IsWhole) (arg5 : Memref sig .tc .vmem S1x2048 .f32) (harg5 : arg5.IsWhole)
    (arg6 : Memref sig .tc .vmem S512x2048 .f32) (harg6 : arg6.IsWhole)
    (x0 : Vec F S512x128 .f32) (x1 : Vec F S2048x128 .f32) (x2 : Vec F S512x1 .f32) (x3 : Vec F S1x2048 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ (∃ d, owns (c : Thread nD τ) arg6 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare (tileOut x0 x1 x2 x3)) -∗ K ⟨⟩))
      ⊢ wp frame (wpE (defs₀ (F := F)) Variants.none c none) E (cc0__kernel i arg2 harg2 arg3 harg3 arg4 harg4 arg5 harg5 arg6 harg6) K := by
  simp only [cc0__kernel_eq_skeleton]; unfold cc0__kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (tile_cover _)

/-! ## The proof data -/

/-- The proof data on core `c`: the arrays as the region finds them; after the body at point `t` each input's buffer at
    its block and the output's at `tileOut` of the input blocks; the invariant the scoped rest; nothing owed; the two
    windows on `z` at the two halves of its share, every other window's array whole. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => tileOut (iblk m c 0 t) (iblk m c 1 t) (iblk m c 2 t) (iblk m c 3 t)
  Φ _ := Pipeline.scopedRest (Ix := Unit) (Name := ℕ) (U := UR sig nD τ) (Lvl := ℕ) (Val := Elt F) spec0 c
  q w := match w with
    | ⟨0, _⟩ => fullShare.left
    | ⟨1, _⟩ => fullShare.right
    | ⟨2, _⟩ => fullShare
    | ⟨3, _⟩ => fullShare
    | ⟨4, _⟩ => fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) :
    (dats m 0 c).after 4 t = tileOut (iblk m c 0 t) (iblk m c 1 t) (iblk m c 2 t) (iblk m c 3 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

/-- The body at any point: the inputs' buffers hold their blocks, so the body's triple applies; the invariant and what the
    core owes pass through untouched. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel c Set.univ (grid0.coords t) _ _ _ _ _ _ _ _ _ _ (iblk m c 0 t) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body obligation, at every point. -/
theorem body_obligation (c : Dev nD) : BodyObligation (dats (F := F) m 0 c) (defs₀ (F := F)) Variants.none () Set.univ := fun t => by
  rw [bigSep_W0, bigSep_W0]
  exact sound_body m c t

/-! ## The share of `z` split between its two windows -/

/-- The distinct buffers behind the five windows' arrays: `z`, the column, the row, the result. -/
theorem arrRefs_eq : Finset.univ.image (Pipeline.arrRef spec0) = [main_arg0, main_v2, main_v3, main_v4].toFinset := by decide

theorem share0 (c : Dev nD) : (dats m 0 c).share 0 = fullShare.left := rfl
theorem share1 (c : Dev nD) : (dats m 0 c).share 1 = fullShare.right := rfl
theorem share2 (c : Dev nD) : (dats m 0 c).share 2 = fullShare := rfl
theorem share3 (c : Dev nD) : (dats m 0 c).share 3 = fullShare := rfl
theorem share4 (c : Dev nD) : (dats m 0 c).share 4 = fullShare := rfl

/-- The proof data's arrays at entry, window by window: each array a whole buffer at the region-entry contents, at the
    window's share. -/
theorem arrays_entry (c : Dev nD) :
    (dats m 0 c).arrays ((dats m 0 c).arrAt · 0)
      = bigSep Finset.univ fun w : Fin 5 => (((c.tc : Thread nD τ).loc (Pipeline.arrRef spec0 w)) ↦{(dats m 0 c).share w} V m c (Pipeline.arrRef spec0 w) : sProp 𝕄) := by
  unfold Dat.arrays
  exact bigSep_congr fun w _ => by rw [(arr_whole0 w).set_eq_univ]; rfl

/-- The buffers behind the arrays, one by one. -/
theorem arrBufs_eq (c : Dev nD) (V' : (b : Ref sig .tc) → Buf (Elt F) ((c.tc : Thread nD τ).loc b)) :
    (Pipeline.arrBufs spec0 c V' : sProp 𝕄)
      = iprop((((c.tc : Thread nD τ).loc main_arg0) ↦{fullShare} V' main_arg0) ∗ (((c.tc : Thread nD τ).loc main_v2) ↦{fullShare} V' main_v2)
          ∗ (((c.tc : Thread nD τ).loc main_v3) ↦{fullShare} V' main_v3) ∗ (((c.tc : Thread nD τ).loc main_v4) ↦{fullShare} V' main_v4)) := by
  unfold Pipeline.arrBufs
  exact bigSep_eq_bigSepL_of_eq [main_arg0, main_v2, main_v3, main_v4] arrRefs_eq (by decide) _

/-- The four buffers behind the arrays, each whole at the full share, make the five windows' arrays: `z`'s full share is
    the left half, for the row-tile window, and the right half, for the column-tile window; the other three buffers go
    whole to their one window. -/
theorem hsplit (c : Dev nD) :
    (Pipeline.arrBufs spec0 c (V m c) : sProp 𝕄) ⊢ (dats m 0 c).arrays ((dats m 0 c).arrAt · 0) := by
  rw [arrays_entry, bigSep_W0, share0, share1, share2, share3, share4, arrBufs_eq]
  iintro ⟨Hz, H2, H3, H4⟩
  ihave Hz := (pointsTo_share (PosShare.mem_left_op_right fullShare)).1 $$ Hz
  icases Hz with ⟨Hz1, Hz2⟩
  isplitl [Hz1]; · iexact Hz1
  isplitl [Hz2]; · iexact Hz2
  isplitl [H2]; · iexact H2
  isplitl [H3]; · iexact H3
  iexact H4

/-! ## The run and the frame -/

set_option backward.isDefEq.respectTransparency.types false in
/-- From any memory with zero counters every weakly fair execution of the program terminates, and every final state has
    each window's array at what the proof data compute for it and every other unscoped buffer as the region found it. -/
theorem run_main : θ_run defs (onTc (τ := τ) (main (F := F))) (s₀ m ρ) (Pipeline.FramePost cfgs (dats m) 0 (V m)) :=
  Cert.Lib.SharedFrame.θ_run_frame_shared cfgs (dats m) (0 : Fin 1) cellOf_inj winFacts₀0 block_pos0 arr_whole0 stage_whole0
    defs₀ Variants.none m ρ main
    (hbody := fun c => (body_obligation m c).loose) (howed := fun _ _ => rfl) (V := V m) (hmain := hmain m Variants.none)
    (hsplit := hsplit m) (hΦ := fun _ _ => rfl)

/-- The frame claim: the program runs to the end without a fault and `z` ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  frame_of m ρ (dats m) (A_eq m) (run_main m ρ)

end Cert.KernelIdeal.Fr

end
-- ==== Proof.Spec.lean ====
/-
  The function both programs compute, over the extended reals.

  For a matrix `z` of 8192 rows and 128 columns, entry `(p, q)` of the result is
  `exp (-(max (‖z_p‖² + ‖z_q‖² - 2 · ⟨z_p, z_q⟩) 0) / 1)`: the Gaussian kernel of the squared distance between rows `p` and `q`,
  the distance written through the Gram identity `‖a - b‖² = ‖a‖² + ‖b‖² - 2⟨a, b⟩` and clamped at zero. The squared
  norm of a row is taken as the host's sum takes it, the zero it starts from written out; the constants `0`, `1`, `2` stay the
  binary words both programs print, read at the ideal instance.
-/
import Idealize.ShloMosaic.Lib.ValueIdx
import Idealize.ShloMosaic.PureOps.Ideal.Laws

noncomputable section

namespace Cert.Spec

open Idealize.ShloMosaic Idealize.ShloMosaic.ValueIdx

/-- The argument's shape, 8192 rows of 128 numbers. -/
abbrev SZ : Shape := ⟨2, ![8192, 128]⟩
/-- The result's shape, one entry per pair of rows. -/
abbrev SO : Shape := ⟨2, ![8192, 8192]⟩

/-- The squared norm of row `r`: zero plus the sum of the squares of its entries. -/
def sqNorm (z : FVec Ideal SZ .f32) (r : Fin 8192) : EReal :=
  Ideal.ofBits .f32 0x00000000#32 + ∑ k : Fin 128, z (ix2 r k) * z (ix2 r k)

/-- The inner product of rows `p` and `q`. -/
def gram (z : FVec Ideal SZ .f32) (p q : Fin 8192) : EReal :=
  ∑ k : Fin 128, z (ix2 p k) * z (ix2 q k)

/-- The Gaussian kernel value from two squared norms `a`, `b` and an inner product `g`:
    `exp (-(max (a + b - 2 g) 0) / 1)`. -/
def rbfOf (a b g : EReal) : EReal :=
  Ideal.exp (Ideal.div (-(max ((a + b) - Ideal.ofBits .f32 0x40000000#32 * g) (Ideal.ofBits .f32 0x00000000#32)))
    (Ideal.ofBits .f32 0x3F800000#32))

/-- The whole result: entry `(p, q)` is the kernel value of rows `p` and `q`. -/
def G (z : FVec Ideal SZ .f32) : FVec Ideal SO .f32 := fun i =>
  rbfOf (sqNorm z ⟨(i 0).val, (i 0).isLt⟩) (sqNorm z ⟨(i 1).val, (i 1).isLt⟩) (gram z ⟨(i 0).val, (i 0).isLt⟩ ⟨(i 1).val, (i 1).isLt⟩)

/-- The result at the entry built from a row pair. -/
theorem G_ix2 (z : FVec Ideal SZ .f32) (p q : Fin 8192) :
    G z (ix2 p q) = rbfOf (sqNorm z p) (sqNorm z q) (gram z p q) := rfl

/-- Subtracting from the zero word is negation: `0 - x = -x` on every extended real. -/
theorem zero_word_sub (x : EReal) : Ideal.ofBits .f32 0x00000000#32 - x = -x := by
  rw [Ideal.ofBits_zero_f32, zero_sub]

end Cert.Spec

end
-- ==== Proof.PayloadAt.lean ====
/-
  The kernel body's arithmetic read at one entry of its block.

  For a block of 512 rows `x0`, a block of 2048 rows `x1` (128 numbers a row each), a column `x3` of 512 numbers and a
  row `x5` of 2048 numbers, entry `(p, q)` of what the body stores is
  `exp (-(max (x3[p] + x5[q] - 2 · ⟨x0_p, x1_q⟩) 0) / 1)`: the product of the two blocks contracts the SECOND axis of
  both (entry `(p, q)` is `Σ_k x0[p, k] · x1[q, k]`) into a zero accumulator, the two shape casts are of a shape to
  itself, the column is broadcast along the columns and the row along the rows, and every other operation acts entry by
  entry. Subtracting from the zero word is negation.
-/
import proofs.«167944_j50560355008576_1_alg».proof.Proof.Gen.KernelIdeal.Skeleton
import proofs.«167944_j50560355008576_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.PayloadAt

open Cert.KernelIdeal Cert.KernelIdeal.Gen Idealize.ShloMosaic Idealize.ShloMosaic.ValueIdx Idealize.SL.Sem

/-! ## A column broadcast over many columns -/

/-- An `[a, 1]` array broadcast to `[a, b]` reads, at `(p, c)`, the operand's one column at row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The product's operand indices, axis by axis

The product contracts axis 1 of both operands: on the left operand axis 0 is the result's row and axis 1 the contraction
position; on the right operand axis 0 is the result's COLUMN and axis 1 the contraction position. -/

theorem lhs_0 (i : S512x2048.Idx) (q : dot_S512x128_S2048x128_S512x2048_1_1_0_0_n_n.contr.Idx) :
    (dot_S512x128_S2048x128_S512x2048_1_1_0_0_n_n.lhsIdx i q 0).val = (i 0).val := by
  unfold DotDims.lhsIdx
  rw [dif_neg (show ¬(0 : Fin S512x128.rank) ∈ dot_S512x128_S2048x128_S512x2048_1_1_0_0_n_n.lhsBatch by decide), dif_pos (show (0 : Fin S512x128.rank) ∈ dot_S512x128_S2048x128_S512x2048_1_1_0_0_n_n.lhsNonContracting by decide)]
  rfl
theorem lhs_1 (i : S512x2048.Idx) (q : dot_S512x128_S2048x128_S512x2048_1_1_0_0_n_n.contr.Idx) :
    (dot_S512x128_S2048x128_S512x2048_1_1_0_0_n_n.lhsIdx i q 1).val = (q ⟨0, by decide⟩).val :=
  dot_S512x128_S2048x128_S512x2048_1_1_0_0_n_n.lhsIdx_val_of_single rfl i q
theorem rhs_0 (i : S512x2048.Idx) (q : dot_S512x128_S2048x128_S512x2048_1_1_0_0_n_n.contr.Idx) :
    (dot_S512x128_S2048x128_S512x2048_1_1_0_0_n_n.rhsIdx i q 0).val = (i 1).val := by
  unfold DotDims.rhsIdx
  rw [dif_neg (show ¬(0 : Fin S2048x128.rank) ∈ dot_S512x128_S2048x128_S512x2048_1_1_0_0_n_n.rhsBatch by decide), dif_pos (show (0 : Fin S2048x128.rank) ∈ dot_S512x128_S2048x128_S512x2048_1_1_0_0_n_n.rhsNonContracting by decide)]
  rfl
theorem rhs_1 (i : S512x2048.Idx) (q : dot_S512x128_S2048x128_S512x2048_1_1_0_0_n_n.contr.Idx) :
    (dot_S512x128_S2048x128_S512x2048_1_1_0_0_n_n.rhsIdx i q 1).val = (q ⟨0, by decide⟩).val :=
  dot_S512x128_S2048x128_S512x2048_1_1_0_0_n_n.rhsIdx_val_of_single rfl i q

/-! ## The product at an entry -/

/-- The product of the two blocks into the zero accumulator, at `(p, q)`: the inner product of row `p` of the left block
    and row `q` of the right one. -/
theorem gram_at (x0 : Vec Ideal S512x128 .f32) (x1 : Vec Ideal S2048x128 .f32) (p : Fin 512) (q : Fin 2048) :
    matmul (F := Ideal) (φ₁ := .f32) (φ₂ := .f32) dot_S512x128_S2048x128_S512x2048_1_1_0_0_n_n (some .fp32) x0 x1 (constant (F := Ideal) S512x2048 .f32 0x00000000#32) (ix2 p q)
      = ∑ k : Fin 128, x0 (ix2 p k) * x1 (ix2 q k) := by
  simp only [matmul]
  rw [Ideal.matmul_constant_zero_apply, ← Equiv.sum_comp (ValueIdx.contrEquiv1 dot_S512x128_S2048x128_S512x2048_1_1_0_0_n_n 128 rfl rfl).symm]
  refine Finset.sum_congr rfl fun k _ => ?_
  have hk := ValueIdx.contrEquiv1_symm_val dot_S512x128_S2048x128_S512x2048_1_1_0_0_n_n 128 rfl rfl k
  have el : dot_S512x128_S2048x128_S512x2048_1_1_0_0_n_n.lhsIdx (ix2 p q) ((ValueIdx.contrEquiv1 dot_S512x128_S2048x128_S512x2048_1_1_0_0_n_n 128 rfl rfl).symm k) = ix2 p k := funext fun a => Fin.ext (by
    match a with
    | ⟨0, _⟩ => exact lhs_0 _ _
    | ⟨1, _⟩ => exact (lhs_1 _ _).trans hk)
  have er : dot_S512x128_S2048x128_S512x2048_1_1_0_0_n_n.rhsIdx (ix2 p q) ((ValueIdx.contrEquiv1 dot_S512x128_S2048x128_S512x2048_1_1_0_0_n_n 128 rfl rfl).symm k) = ix2 q k := funext fun a => Fin.ext (by
    match a with
    | ⟨0, _⟩ => exact rhs_0 _ _
    | ⟨1, _⟩ => exact (rhs_1 _ _).trans hk)
  rw [el, er]

/-! ## The two broadcasts at an entry -/

/-- The column, cast to its own shape and broadcast along the columns, at `(p, q)`: the column at row `p`. -/
theorem col_at (x3 : Vec Ideal S512x1 .f32) (p : Fin 512) (q : Fin 2048) :
    broadcastTo S512x2048 (shapeCast S512x1 x3 shapeCasts_S512x1_S512x1) broadcasts_S512x1_S512x2048 (ix2 p q)
      = x3 (ix2 p (0 : Fin 1)) := by
  rw [shapeCast_self]
  exact broadcastTo_a1_ab_apply x3 broadcasts_S512x1_S512x2048 p q

/-- The row, cast to its own shape and broadcast along the rows, at `(p, q)`: the row at column `q`. -/
theorem row_at (x5 : Vec Ideal S1x2048 .f32) (p : Fin 512) (q : Fin 2048) :
    broadcastTo S512x2048 (shapeCast S1x2048 x5 shapeCasts_S1x2048_S1x2048) broadcasts_S1x2048_S512x2048 (ix2 p q)
      = x5 (ix2 (0 : Fin 1) q) := by
  rw [shapeCast_self]
  exact broadcastTo_1b_ab_apply x5 broadcasts_S1x2048_S512x2048 p q

/-! ## The payload at an entry -/

/-- Entry `(p, q)` of the body's stored value is the Gaussian kernel value of the column at `p`, the row at `q` and the
    inner product of row `p` of the left block with row `q` of the right block. -/
theorem pay_at [Cert.KernelIdeal.Facts] (x0 : Vec Ideal Cert.KernelIdeal.S512x128 .f32) (x1 : Vec Ideal Cert.KernelIdeal.S2048x128 .f32)
    (x3 : Vec Ideal Cert.KernelIdeal.S512x1 .f32) (x5 : Vec Ideal Cert.KernelIdeal.S1x2048 .f32) (p : Fin 512) (q : Fin 2048) :
    Cert.KernelIdeal.Gen.k0_pay1 (F := Ideal) x0 x1 x3 x5 (ix2 p q)
      = Cert.Spec.rbfOf (x3 (ix2 p (0 : Fin 1))) (x5 (ix2 (0 : Fin 1) q)) (∑ k : Fin 128, x0 (ix2 p k) * x1 (ix2 q k)) := by
  have key : Cert.KernelIdeal.Gen.k0_pay1 (F := Ideal) x0 x1 x3 x5 (ix2 p q)
      = Ideal.exp (Ideal.div
          (Ideal.ofBits .f32 0x00000000#32
            - max ((broadcastTo S512x2048 (shapeCast S512x1 x3 shapeCasts_S512x1_S512x1) broadcasts_S512x1_S512x2048 (ix2 p q)
                    + broadcastTo S512x2048 (shapeCast S1x2048 x5 shapeCasts_S1x2048_S1x2048) broadcasts_S1x2048_S512x2048 (ix2 p q))
                  - Ideal.ofBits .f32 0x40000000#32
                    * matmul (F := Ideal) (φ₁ := .f32) (φ₂ := .f32) dot_S512x128_S2048x128_S512x2048_1_1_0_0_n_n (some .fp32) x0 x1 (constant (F := Ideal) S512x2048 .f32 0x00000000#32) (ix2 p q))
                (Ideal.ofBits .f32 0x00000000#32))
          (Ideal.ofBits .f32 0x3F800000#32)) := rfl
  rw [key, col_at, row_at, gram_at, Cert.Spec.zero_word_sub]
  rfl

end Cert.PayloadAt

end
-- ==== Proof.KernelValue.lean ====
/-
  What the idealized kernel program leaves in its result array: the Gaussian kernel of the specification.

  Grid point `t` of the 16 × 4 grid has a row-tile index `I` and a column-tile index `J`. The body finds in its four input
  buffers rows `512 I + p` of `z`, rows `2048 J + q` of `z`, the squared norms of those rows (the host's column and row
  of row sums, reshaped), and stores at `(p, q)` the kernel value of rows `512 I + p` and `2048 J + q`: the tile it writes
  back is tile `(I, J)` of the one function `G z`. The 64 tiles fill the 8192 × 8192 result, so the result IS `G z`.
-/
import proofs.«167944_j50560355008576_1_alg».proof.Proof.KernelIdealFrame
import proofs.«167944_j50560355008576_1_alg».proof.Proof.PayloadAt
import proofs.«167944_j50560355008576_1_alg».proof.Proof.Spec
import Idealize.ShloMosaic.Lib.Pipeline.Value
import Idealize.ShloMosaic.Lib.StableHlo.Run
import Idealize.ShloMosaic.Lib.ValueIdx
import Idealize.ShloMosaic.PureOps.Ideal.Laws

set_option maxRecDepth 16384

noncomputable section

namespace Cert.KernelIdeal.Val

open Cert.KernelIdeal Cert.KernelIdeal.Gen Cert.KernelIdeal.Fr Cert.Spec
open Idealize.ShloMosaic Idealize.ShloMosaic.TcCoe Idealize.ShloMosaic.ValueIdx Idealize.SL.Sem Idealize.ShloMosaic.StableHlo
open Idealize.ShloMosaic.Pipeline (Dat)

variable (m : (ℓ : Loc nD τ sig) → Buf (Elt Ideal) ℓ) (ρ : Dev nD → PrngReg)

/-- The argument `z` as launched, on core `c`. -/
abbrev zOf (c : Dev nD) : FVec Ideal S8192x128 .f32 := m ((c.tc : Thread nD τ).loc main_arg0)

/-- The argument `z` as the region finds it. -/
abbrev zV (c : Dev nD) : FVec Ideal S8192x128 .f32 := V m c main_arg0

theorem zV_eq (c : Dev nD) : zV m c = zOf m c := V_main_arg0 m c

/-! ## The host operations before the region: the squared norms, as a column and as a row -/

/-- The host's sum over a row of the entrywise square, started from the zero word, is the squared norm of the row. -/
theorem rowsum_at (z : FVec Ideal S8192x128 .f32) (r : Fin 8192) :
    Host.reduceAdd (mulf z z) (constant (F := Ideal) S_ .f32 0x00000000#32) reducesTo_S8192x128_S8192_d1 h_S_ (ix1 r) = sqNorm z r := by
  simp only [Host.reduceAdd, Ideal.hostReduceAdd_def]
  rw [Ideal.hostReduceAdd_single reducesTo_S8192x128_S8192_d1 (by decide)]
  unfold sqNorm
  refine congrArg (_ + ·) (Finset.sum_congr rfl fun k _ => ?_)
  have e : (by decide : S8192x128.Reduces [1] S8192).lift (ix1 r) k = ix2 r ⟨k.val, k.isLt⟩ :=
    funext fun a => Fin.ext (by match a with | ⟨0, _⟩ => rfl | ⟨1, _⟩ => rfl)
  rw [e]
  rfl

/-- The column the region finds: the row sums of squares, reshaped to 8192 × 1. -/
theorem col_eq (c : Dev nD) :
    (V m c main_v2 : S8192x1.Idx → EReal)
      = shapeCast S8192x1 (Host.reduceAdd (mulf (zOf m c) (zOf m c)) (constant (F := Ideal) S_ .f32 0x00000000#32) reducesTo_S8192x128_S8192_d1 h_S_) shapeCasts_S8192_S8192x1 := by
  dsimp only [V, hostOps0]; after_results; rfl

/-- The row the region finds: the same sums, reshaped to 1 × 8192. -/
theorem row_eq (c : Dev nD) :
    (V m c main_v3 : S1x8192.Idx → EReal)
      = shapeCast S1x8192 (Host.reduceAdd (mulf (zOf m c) (zOf m c)) (constant (F := Ideal) S_ .f32 0x00000000#32) reducesTo_S8192x128_S8192_d1 h_S_) shapeCasts_S8192_S1x8192 := by
  dsimp only [V, hostOps0]; after_results; rfl

/-- Entry `r` of the column is the squared norm of row `r`. -/
theorem col_val (c : Dev nD) (r : Fin 8192) : (V m c main_v2 : S8192x1.Idx → EReal) (ix2 r (0 : Fin 1)) = sqNorm (zOf m c) r := by
  rw [col_eq, shapeCast_apply _ shapeCasts_S8192_S8192x1 (ix2 r (0 : Fin 1)) (ix1 r)
    (by rw [Shape.rowMajor_val_one, Shape.rowMajor_val_two]; show r.val = r.val * 1 + 0; omega)]
  exact rowsum_at (zOf m c) r

/-- Entry `r` of the row is the squared norm of row `r`. -/
theorem row_val (c : Dev nD) (r : Fin 8192) : (V m c main_v3 : S1x8192.Idx → EReal) (ix2 (0 : Fin 1) r) = sqNorm (zOf m c) r := by
  rw [row_eq, shapeCast_apply _ shapeCasts_S8192_S1x8192 (ix2 (0 : Fin 1) r) (ix1 r)
    (by rw [Shape.rowMajor_val_one, Shape.rowMajor_val_two]; show r.val = 0 * 8192 + r.val; omega)]
  exact rowsum_at (zOf m c) r

/-! ## One tile -/

theorem hz : (![0, 0] : Fin 2 → Nat) = fun _ => 0 := funext fun a => by fin_cases a <;> rfl

/-- If the four blocks hold rows `P p` and `Q q` of `z` and the squared norms of those rows, entry `(p, q)` of what the
    body stores is entry `(P p, Q q)` of `G z`. -/
theorem tile_entry (z : FVec Ideal S8192x128 .f32) (colv : FVec Ideal S8192x1 .f32) (rowv : FVec Ideal S1x8192 .f32)
    (hcol : ∀ r : Fin 8192, colv (ix2 r (0 : Fin 1)) = sqNorm z r) (hrow : ∀ r : Fin 8192, rowv (ix2 (0 : Fin 1) r) = sqNorm z r)
    (x0 : Vec Ideal S512x128 .f32) (x1 : Vec Ideal S2048x128 .f32) (x2 : Vec Ideal S512x1 .f32) (x3 : Vec Ideal S1x2048 .f32)
    (P : Fin 512 → Fin 8192) (Q : Fin 2048 → Fin 8192)
    (h0 : ∀ (p : Fin 512) (k : Fin 128), x0 (ix2 p k) = z (ix2 (P p) k))
    (h1 : ∀ (q : Fin 2048) (k : Fin 128), x1 (ix2 q k) = z (ix2 (Q q) k))
    (h2 : ∀ p : Fin 512, x2 (ix2 p (0 : Fin 1)) = colv (ix2 (P p) (0 : Fin 1)))
    (h3 : ∀ q : Fin 2048, x3 (ix2 (0 : Fin 1) q) = rowv (ix2 (0 : Fin 1) (Q q)))
    (p : Fin 512) (q : Fin 2048) :
    k0_pay1 (F := Ideal) x0 x1 x2 x3 (ix2 p q) = G z (ix2 (P p) (Q q)) := by
  rw [Cert.PayloadAt.pay_at, G_ix2, h2, h3, hcol, hrow]
  unfold gram
  exact congrArg _ (Finset.sum_congr rfl fun k _ => by rw [h0, h1])

/-! ## The index maps over the grid -/

/-- The printed index maps, decided over the 64 grid points: windows 0 and 2 follow the output's row-tile index,
    windows 1 and 3 its column-tile index, every other block index is zero, and the output's indices stay in range. -/
theorem idx_facts : ∀ t : Fin cfg0.N,
    win0_0.index t (0 : Fin 2) = win0_4.index t (0 : Fin 2) ∧ win0_0.index t (1 : Fin 2) = 0
    ∧ win0_1.index t (0 : Fin 2) = win0_4.index t (1 : Fin 2) ∧ win0_1.index t (1 : Fin 2) = 0
    ∧ win0_2.index t (0 : Fin 2) = win0_4.index t (0 : Fin 2) ∧ win0_2.index t (1 : Fin 2) = 0
    ∧ win0_3.index t (0 : Fin 2) = 0 ∧ win0_3.index t (1 : Fin 2) = win0_4.index t (1 : Fin 2)
    ∧ win0_4.index t (0 : Fin 2) ≤ 15 ∧ win0_4.index t (1 : Fin 2) ≤ 3 :=
  (by decide +kernel : ∀ t : Fin grid0.N, _)

/-- Every tile of the result is some grid point's. -/
theorem idx_onto : ∀ (q0 : Fin 16) (q1 : Fin 4), ∃ t : Fin cfg0.N, win0_4.index t = ![q0.val, q1.val] :=
  (by decide +kernel : ∀ (q0 : Fin 16) (q1 : Fin 4), ∃ t : Fin grid0.N, win0_4.index t = ![q0.val, q1.val])

/-! ## What a point writes back, and the whole result -/

/-- What grid point `t` writes back is tile `t` of `G z`. -/
theorem flushed_eq (c : Dev nD) (t : Fin cfg0.N) :
    (dats m 0 c).flushed 4 t = ((cfg0.win 4).blk t).view.read (Elt Ideal) (G (zOf m c)) := by
  show (cfg0.win 4).cut (grid0.coords t) ((dats m 0 c).after 4 t) = _
  rw [after0_4]
  unfold tileOut
  rw [View.canon_unit_zero hz]
  simp only [View.ld_unit_zero (S := S512x128) hz, View.ld_unit_zero (S := S2048x128) hz, View.ld_unit_zero (S := S512x1) hz,
    View.ld_unit_zero (S := S1x2048) hz]
  obtain ⟨e00, e01, e10, e11, e20, e21, e30, e31, b0, b1⟩ := idx_facts t
  funext j
  revert j
  show ∀ j : S512x2048.Idx, k0_pay1 (F := Ideal) (iblk m c 0 t) (iblk m c 1 t) (iblk m c 2 t) (iblk m c 3 t) j
    = G (zOf m c) (((cfg0.win 4).blk t).view.emb j)
  intro j
  obtain ⟨p, q, rfl⟩ : ∃ (p : Fin 512) (q : Fin 2048), j = ix2 p q := ⟨j 0, j 1, eq_ix2 j⟩
  have hemb : ((cfg0.win 4).blk t).view.emb (ix2 p q)
      = ix2 (⟨win0_4.index t (0 : Fin 2) * 512 + p.val, by have := p.isLt; omega⟩ : Fin 8192)
          (⟨win0_4.index t (1 : Fin 2) * 2048 + q.val, by have := q.isLt; omega⟩ : Fin 8192) :=
    funext fun a => Fin.ext (by
      match a with
      | ⟨0, _⟩ => show win0_4.index t (0 : Fin 2) * 512 + 1 * p.val = win0_4.index t (0 : Fin 2) * 512 + p.val; omega
      | ⟨1, _⟩ => show win0_4.index t (1 : Fin 2) * 2048 + 1 * q.val = win0_4.index t (1 : Fin 2) * 2048 + q.val; omega)
  rw [hemb, ← zV_eq]
  refine tile_entry (zV m c) (V m c main_v2) (V m c main_v3) (fun r => by rw [zV_eq]; exact col_val m c r) (fun r => by rw [zV_eq]; exact row_val m c r)
    (iblk m c 0 t) (iblk m c 1 t) (iblk m c 2 t) (iblk m c 3 t)
    (fun p => ⟨win0_4.index t (0 : Fin 2) * 512 + p.val, by have := p.isLt; omega⟩)
    (fun q => ⟨win0_4.index t (1 : Fin 2) * 2048 + q.val, by have := q.isLt; omega⟩) ?_ ?_ ?_ ?_ p q
  · intro p k
    show V m c main_arg0 (((cfg0.win 0).blk t).view.emb (ix2 p k)) = V m c main_arg0 _
    refine congrArg _ (funext fun a => Fin.ext ?_)
    match a with
    | ⟨0, _⟩ => show win0_0.index t (0 : Fin 2) * 512 + 1 * p.val = win0_4.index t (0 : Fin 2) * 512 + p.val; omega
    | ⟨1, _⟩ => show win0_0.index t (1 : Fin 2) * 128 + 1 * k.val = k.val; omega
  · intro q k
    show V m c main_arg0 (((cfg0.win 1).blk t).view.emb (ix2 q k)) = V m c main_arg0 _
    refine congrArg _ (funext fun a => Fin.ext ?_)
    match a with
    | ⟨0, _⟩ => show win0_1.index t (0 : Fin 2) * 2048 + 1 * q.val = win0_4.index t (1 : Fin 2) * 2048 + q.val; omega
    | ⟨1, _⟩ => show win0_1.index t (1 : Fin 2) * 128 + 1 * k.val = k.val; omega
  · intro p
    show V m c main_v2 (((cfg0.win 2).blk t).view.emb (ix2 p (0 : Fin 1))) = V m c main_v2 _
    refine congrArg _ (funext fun a => Fin.ext ?_)
    match a with
    | ⟨0, _⟩ => show win0_2.index t (0 : Fin 2) * 512 + 1 * p.val = win0_4.index t (0 : Fin 2) * 512 + p.val; omega
    | ⟨1, _⟩ => show win0_2.index t (1 : Fin 2) * 1 + 1 * 0 = 0; omega
  · intro q
    show V m c main_v3 (((cfg0.win 3).blk t).view.emb (ix2 (0 : Fin 1) q)) = V m c main_v3 _
    refine congrArg _ (funext fun a => Fin.ext ?_)
    match a with
    | ⟨0, _⟩ => show win0_3.index t (0 : Fin 2) * 1 + 1 * 0 = 0; omega
    | ⟨1, _⟩ => show win0_3.index t (1 : Fin 2) * 2048 + 1 * q.val = win0_4.index t (1 : Fin 2) * 2048 + q.val; omega

/-- An index of the result is in point `t`'s tile iff each coordinate is in the tile's range on its axis. -/
theorem mem_tile (t : Fin cfg0.N) (i : S8192x8192.Idx) :
    i ∈ ((cfg0.win 4).blk t).view.set ↔ ∀ a : Fin 2, win0_4.index t a * S512x2048.size a ≤ (i a).val ∧ (i a).val < win0_4.index t a * S512x2048.size a + S512x2048.size a := by
  show i ∈ ((View.whole main_v4).slice (win0_4.rect t)).set ↔ _
  rw [View.set_slice_whole, Rect.mem_set_unit]
  exact Iff.rfl

/-- The tiles fill the result: index `(r, s)` lies in the tile of the point with row-tile `r / 512` and column-tile `s / 2048`. -/
theorem cover (i : S8192x8192.Idx) : ∃ t : Fin cfg0.N, (cfg0.win 4).flush t = true ∧ i ∈ ((cfg0.win 4).blk t).view.set := by
  have hi0 : (i 0).val < 8192 := (i 0).isLt
  have hi1 : (i 1).val < 8192 := (i 1).isLt
  obtain ⟨t, ht⟩ := idx_onto ⟨(i 0).val / 512, by omega⟩ ⟨(i 1).val / 2048, by omega⟩
  have q0 : win0_4.index t (0 : Fin 2) = (i 0).val / 512 := congrFun ht 0
  have q1 : win0_4.index t (1 : Fin 2) = (i 1).val / 2048 := congrFun ht 1
  refine ⟨t, flush0_4 t, ?_⟩
  rw [mem_tile]
  intro a
  match a with
  | ⟨0, _⟩ => show win0_4.index t (0 : Fin 2) * 512 ≤ (i 0).val ∧ (i 0).val < win0_4.index t (0 : Fin 2) * 512 + 512; omega
  | ⟨1, _⟩ => show win0_4.index t (1 : Fin 2) * 2048 ≤ (i 1).val ∧ (i 1).val < win0_4.index t (1 : Fin 2) * 2048 + 2048; omega

/-- The result array after the run is `G z`. -/
theorem final (c : Dev nD) : (dats m 0 c).arrAt 4 cfg0.N = G (zOf m c) :=
  (dats m 0 c).arrAt_eq_of_cover 4 (G (zOf m c)) (fun t _ => flushed_eq m c t) cover

/-! ## The run, read -/

/-- Every weakly fair execution of the idealized kernel program terminates with the result at `G z` and `z` unchanged. -/
theorem run : θ_run defs (onTc (τ := τ) (main (F := Ideal))) ⟨m, fun _ => 0, ρ⟩ fun r => ∀ c : Dev nD,
      r.2.mem ((c.tc : Thread nD τ).loc main_v4) = G (zOf m c)
      ∧ r.2.mem ((c.tc : Thread nD τ).loc main_arg0) = m ((c.tc : Thread nD τ).loc main_arg0) :=
  (θ_run defs _ _).mono (fun r h c => ⟨((h c).1 4).trans (final m c),
      ((h c).1 0).trans (((dats m 0 c).arrAt_in 0 rfl _).trans ((A_eq m c 0).trans (V_main_arg0 m c)))⟩)
    (run_main m ρ)

end Cert.KernelIdeal.Val

end
-- ==== Proof.RefValue.lean ====
/-
  The reference program, read at the ideal instance, is the Gaussian kernel of the specification.

  Index by index the reference computes, for a matrix `z` of 8192 rows and 128 columns,
    sq[r]      = 0 + Σ_k z[r,k] · z[r,k]                 (a sum over the row, started from the zero word),
    gram[p,q]  = Σ_k z[p,k] · zᵀ[k,q] = Σ_k z[p,k] · z[q,k]   (the product with the transpose),
    out[p,q]   = exp ( -(max ((sq[p] + sq[q]) - 2 · gram[p,q]) 0) / 1 ).
  Over the extended reals the negation is `-x`, the quotient is `Ideal.div` and the exponential is `Ideal.exp`, so
  entry `(p, q)` is `rbfOf (sqNorm z p) (sqNorm z q) (gram z p q)` on the nose: nothing is rearranged, the two sides are the
  same expression once every layout operation (transpose, broadcast) has been read at its index.
-/
import proofs.«167944_j50560355008576_1_alg».proof.Proof.Gen.ReferenceIdeal.Read
import proofs.«167944_j50560355008576_1_alg».proof.Proof.Spec

noncomputable section

namespace Cert.RefValue

open Idealize.ShloMosaic Idealize.ShloMosaic.ValueIdx Cert.ReferenceIdeal Cert.ReferenceIdeal.Read Cert.Spec

/-- The row sum of squares at row `r` is the specification's squared norm of row `r`: the zero word plus the sum over
    the 128 columns of the entry times itself. -/
theorem sq_row (x : FVec Ideal SZ .f32) (r : Fin 8192) :
    val_main_v1 (F := Ideal) x (ix1 r) = sqNorm x r := by
  rw [val_main_v1_apply, val_main_cst_apply]
  unfold sqNorm
  refine congrArg (_ + ·) (Finset.sum_congr rfl fun k _ => ?_)
  have e : idx_main_v1 (ix1 r) k = ix2 r k :=
    funext fun a => Fin.ext (by match a with | ⟨0, _⟩ => rfl | ⟨1, _⟩ => rfl)
  rw [val_main_v0_apply, e, Ideal.mulf_def]

/-- Entry `(p, q)` of the product with the transpose is the inner product of rows `p` and `q`: the transpose read at
    `(k, q)` is the matrix read at `(q, k)`. -/
theorem gram_at (x : FVec Ideal SZ .f32) (p q : Fin 8192) :
    val_main_v3 (F := Ideal) x (ix2 p q) = gram x p q := by
  rw [val_main_v3_apply]
  unfold gram
  refine Finset.sum_congr rfl fun k _ => ?_
  have el : lidx_main_v3 (ix2 p q) k = ix2 p k :=
    funext fun a => Fin.ext (by match a with | ⟨0, _⟩ => rfl | ⟨1, _⟩ => rfl)
  have er : idx_main_v2 (ridx_main_v3 (ix2 p q) k) = ix2 q k :=
    funext fun a => Fin.ext (by match a with | ⟨0, _⟩ => rfl | ⟨1, _⟩ => rfl)
  rw [val_main_v2_apply, el, er]

/-- The reference's result is the specification's function: at entry `(p, q)` the row norms are broadcast along the
    columns and along the rows, added, twice the inner product subtracted, the difference clamped at zero, negated,
    divided by the word one and exponentiated, which is `rbfOf` of the two squared norms and the inner product. -/
theorem ref_eq (x : FVec Ideal Cert.Spec.SZ .f32) :
    Cert.ReferenceIdeal.Read.val_main_v17 (F := Ideal) x = Cert.Spec.G x := by
  funext i
  obtain ⟨p, q, rfl⟩ : ∃ (p : Fin 8192) (q : Fin 8192), i = ix2 p q := ⟨i 0, i 1, eq_ix2 i⟩
  rw [Cert.Spec.G_ix2]
  have e4 : idx_main_v4 (idx_main_v6 (ix2 p q)) = ix1 p :=
    funext fun a => Fin.ext (by match a with | ⟨0, _⟩ => rfl)
  have e5 : idx_main_v5 (idx_main_v7 (ix2 p q)) = ix1 q :=
    funext fun a => Fin.ext (by match a with | ⟨0, _⟩ => rfl)
  rw [val_main_v17_apply, val_main_v16_apply, val_main_v14_apply, val_main_v13_apply, val_main_v11_apply,
    val_main_v8_apply, val_main_v10_apply, val_main_v6_apply, val_main_v7_apply, val_main_v4_apply, val_main_v5_apply,
    val_main_v9_apply, val_main_v12_apply, val_main_v15_apply, val_main_cst_0_apply, val_main_cst_1_apply,
    val_main_cst_2_apply, e4, e5, sq_row, sq_row, gram_at]
  simp only [Ideal.hostUnary_exp_def, Ideal.hostDivf_def, Ideal.hostNegf_def, Ideal.negf_def, Ideal.maximumf_def,
    Ideal.subf_def, Ideal.addf_def, Ideal.mulf_def, Ideal.ofBits_def]
  rfl

end Cert.RefValue

end
-- ==== Proof.lean ====
/-
  The certificate of a Pallas kernel for the Gaussian (RBF) kernel matrix of pairwise squared distances, against its
  jnp reference: over the extended reals the two programs compute the same 8192 × 8192 matrix
  `out[p, q] = exp (-(max (‖z_p‖² + ‖z_q‖² - 2 ⟨z_p, z_q⟩) 0) / 1)` of the argument `z` (8192 rows of 128 numbers).

  Both programs take the squared norms by the same host sum. The reference multiplies `z` by its transpose on the host;
  the kernel multiplies a 512-row tile of `z` by a 2048-row tile of `z`, contracting the second axis of both, at each
  of 16 × 4 grid points: a different tiling of the same sums, equal term by term, so no algebraic law beyond
  `0 - x = -x` joins the two sides and the precondition (finite inputs) is never opened.

  The kernel reads `z` through two windows at once, so the array's share is split between them (the frame modules).
  The three frames: the two kernel programs run by the shared-array frame run; the reference by its host run. The
  ideal pass rewrote nothing, so the idealization claim is trivial.
-/
import proofs.«167944_j50560355008576_1_alg».proof.Defs
import proofs.«167944_j50560355008576_1_alg».proof.Proof.Gen.Kernel
import proofs.«167944_j50560355008576_1_alg».proof.Proof.Gen.KernelIdeal
import proofs.«167944_j50560355008576_1_alg».proof.Proof.Gen.ReferenceIdeal
import proofs.«167944_j50560355008576_1_alg».proof.Proof.Gen.Pre_finite_inputs
import proofs.«167944_j50560355008576_1_alg».proof.Proof.Gen.ReferenceIdeal.Run
import proofs.«167944_j50560355008576_1_alg».proof.Proof.Gen.ReferenceIdeal.Read
import proofs.«167944_j50560355008576_1_alg».proof.Proof.KernelFrame
import proofs.«167944_j50560355008576_1_alg».proof.Proof.KernelIdealFrame
import proofs.«167944_j50560355008576_1_alg».proof.Proof.KernelValue
import proofs.«167944_j50560355008576_1_alg».proof.Proof.RefValue

noncomputable section

namespace Cert.Proof

open Idealize.ShloMosaic Idealize.ShloMosaic.TcCoe Idealize.SL.Sem

/-- The bit-level kernel program runs to the end without a fault and leaves `z` as launched. -/
theorem frame_k : Cert.frame_Kernel := fun m ρ _ => Cert.Kernel.Fr.frame m ρ

/-- So does the idealized kernel program. -/
theorem frame_ki : Cert.frame_KernelIdeal := fun m ρ _ => Cert.KernelIdeal.Fr.frame m ρ

/-- The reference is host operations only: its run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- Run from memories that agree on `z`, both idealized programs end with their result at `G z`. -/
theorem algebraic : Cert.algebraic_KernelIdeal_ReferenceIdeal := by
  intro m ρ m' ρ' _ hagree
  refine ⟨fun c => Cert.Spec.G (Cert.KernelIdeal.Val.zOf m c), Cert.KernelIdeal.Val.run m ρ, ?_⟩
  refine (θ_run Cert.ReferenceIdeal.defs _ _).mono (fun _ h c => ⟨(h c).1.trans ?_, (h c).2⟩)
    (Cert.ReferenceIdeal.Value.run (F := Ideal) m' ρ')
  exact (Cert.ReferenceIdeal.Read.val_main_v17_eq _).trans ((Cert.RefValue.ref_eq _).trans (congrArg Cert.Spec.G (hagree c)))

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
